-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x500 : Shape := ⟨2, ![4000, 500]⟩
abbrev S4000x16 : Shape := ⟨2, ![4000, 16]⟩
abbrev S3300000x16 : Shape := ⟨2, ![3300000, 16]⟩
abbrev S1x16 : Shape := ⟨2, ![1, 16]⟩
abbrev S100000x40 : Shape := ⟨2, ![100000, 40]⟩
abbrev S4000x40 : Shape := ⟨2, ![4000, 40]⟩
abbrev S3300000x40 : Shape := ⟨2, ![3300000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S4000x500, .f32⟩
  | .local _ .vmem, ⟨1, _⟩ => ⟨S4000x500, .f32⟩
  | .local _ .vmem, ⟨2, _⟩ => ⟨S500x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S4000x16, .f32⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S16x40, .f32⟩
  | .local _ .vmem, ⟨13, _⟩ => ⟨S4000x40, .f32⟩
  | .local _ .vmem, ⟨14, _⟩ => ⟨S4000x40, .f32⟩
  | .local _ .vmem, ⟨15, _⟩ => ⟨S4000x40, .f32⟩
  | .local _ .vmem, ⟨16, _⟩ => ⟨S4000x40, .f32⟩
  | .local _ .vmem, ⟨17, _⟩ => ⟨S1x40, .f32⟩
  | .local _ .vmem, ⟨18, _⟩ => ⟨S4000x40, .f32⟩
  | .local _ .vmem, ⟨19, _⟩ => ⟨S4000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x500_S500x16_S4000x16_1_0_0_1_n_n_wf : DotDims.WF S4000x500 S500x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x40_S4000x40_1_0_0_1_n_n_wf : DotDims.WF S4000x16 S16x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x40.size a ≤ S100000x40.size a
  hwx3_0 : ∀ i : grid3.Coords, EltTy.bits .f32 = 32 ∨ (Rect.block (s := S100000x40) S4000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x40.size a ≤ S100000x40.size a
  hwx3_2 : ∀ i : grid3.Coords, EltTy.bits .f32 = 32 ∨ (Rect.block (s := S100000x40) S4000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x500_S500x16_S4000x16_1_0_0_1_n_n : DotDims S4000x500 S500x16 S4000x16 where
  lhsContracting := [1]
  rhsContracting := [0]
  lhsNonContracting := [0]
  rhsNonContracting := [1]
  lhsBatch := []
  rhsBatch := []
  wf := dot_S4000x500_S500x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x500, .f32⟩
  | 1 => ⟨S2x3200000, .i32⟩
  | 2 => ⟨S500x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x40, .f32⟩
  | 119 => ⟨S3300000x1, .f32⟩
  | 120 => ⟨S3300000x40, .f32⟩
  | 121 => ⟨S3300000x40, .f32⟩
  | 122 => ⟨S_, .f32⟩
  | 123 => ⟨S100000x40, .f32⟩
  | 124 => ⟨S3300000x1, .i32⟩
  | 125 => ⟨S100000x40, .f32⟩
  | 126 => ⟨S1x40, .f32⟩
  | 127 => ⟨S100000x40, .f32⟩
  | _ => ⟨S100000x500, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x500_S500x16_S100000x16_1_0_0_1_n_n_wf : DotDims.WF S100000x500 S500x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.RefStages.lean ====
/-
  The reference's run, read in five stretches of its operation list.

  The reference appends the self loops to the edge sources and to the edge targets, once for each layer: four two-piece
  concatenations. Read across a concatenation, the values of its two pieces are computed values inside a list; read
  from just before it, they are buffers like any other. So the list is cut before each concatenation (at operations
  4, 7, 67 and 70 of 138) and each stretch is read from ANY buffer contents: if the buffers a stretch reads hold the
  reference's stages of the six arguments, the buffers it writes hold the next stages (one more cut, after the biased
  scores at operation 122, keeps the last stretch from carrying four copies of layer 2's aggregation). Chained from the launch memory,
  the result buffer ends at the last stage of the launch arguments; the arguments are never written.
-/
import proofs.«156435_j30116310680051_1_alg».proof.Proof.RefRead
import Idealize.ShloMosaic.Lib.StableHlo.Run

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP (ops)

variable {F : FTy → Type} [FloatOps F]

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A value stored through a typed reference and read back through it is the value. -/
theorem ofBuf_toBuf {T : BufTy} (x : TRef sig T) (v : T.Contents (Elt F)) : x.ofBuf (x.toBuf v) = v := by
  obtain ⟨r, h, _, _⟩ := x
  subst h
  rfl

/-- The stretches: up to the first concatenation, up to the second, layer 1 and the second layer's product up to the
    third concatenation, up to the fourth, layer 2's aggregation up to the biased scores, and the log-softmax. The last cut
    is not at a concatenation: the result reads the biased scores four times over, and read from after them they are one
    buffer. -/
abbrev opsA : List (HloOp τ sig (Elt F)) := (ops (F := F)).take 4
abbrev opsB : List (HloOp τ sig (Elt F)) := ((ops (F := F)).drop 4).take 3
abbrev opsC : List (HloOp τ sig (Elt F)) := ((ops (F := F)).drop 7).take 60
abbrev opsD : List (HloOp τ sig (Elt F)) := ((ops (F := F)).drop 67).take 3
abbrev opsE : List (HloOp τ sig (Elt F)) := ((ops (F := F)).drop 70).take 53
abbrev opsG : List (HloOp τ sig (Elt F)) := (ops (F := F)).drop 123

theorem ops_split : (ops (F := F)) = opsA ++ (opsB ++ (opsC ++ (opsD ++ (opsE ++ opsG)))) := rfl

/-- Spell a stretch out as the literal list it is. -/
macro "open_chunk" : tactic =>
  `(tactic| simp only [opsA, opsB, opsC, opsD, opsE, opsG, ops, List.take_succ_cons, List.take_zero, List.drop_succ_cons, List.drop_zero])

variable (X : Valuation τ sig (Elt F))

/-! ## Stretch A: the first product, the node numbers, the edge sources -/

theorem A_v0 : after opsA X (Proc.devRef .tc main_v0) = Cert.ReferenceIdeal.ReadP.val_main_v0 (F := F) (X (Proc.devRef .tc main_arg0)) (X (Proc.devRef .tc main_arg2)) := by
  open_chunk; after_results_simp <;> rfl
theorem A_v1 : after opsA X (Proc.devRef .tc main_v1) = Cert.ReferenceIdeal.ReadP.val_main_v1 (F := F) := by open_chunk; after_results_simp <;> rfl
theorem A_v3 : after opsA X (Proc.devRef .tc main_v3) = Cert.ReferenceIdeal.ReadP.val_main_v3 (F := F) (X (Proc.devRef .tc main_arg1)) := by
  open_chunk; after_results_simp <;> rfl
theorem A_keep_arg1 : after opsA X (Proc.devRef .tc main_arg1) = X (Proc.devRef .tc main_arg1) := by open_chunk; after_results_simp <;> rfl
theorem A_keep_arg3 : after opsA X (Proc.devRef .tc main_arg3) = X (Proc.devRef .tc main_arg3) := by open_chunk; after_results_simp <;> rfl
theorem A_keep_arg4 : after opsA X (Proc.devRef .tc main_arg4) = X (Proc.devRef .tc main_arg4) := by open_chunk; after_results_simp <;> rfl
theorem A_keep_arg5 : after opsA X (Proc.devRef .tc main_arg5) = X (Proc.devRef .tc main_arg5) := by open_chunk; after_results_simp <;> rfl

/-! ## Stretch B: the sources with the self loops; the edge targets -/

theorem B_v4 (x1 : (⟨S2x3200000, .i32⟩ : BufTy).Contents (Elt F)) (h3 : X (Proc.devRef .tc main_v3) = Cert.ReferenceIdeal.ReadP.val_main_v3 (F := F) x1)
    (h1 : X (Proc.devRef .tc main_v1) = Cert.ReferenceIdeal.ReadP.val_main_v1 (F := F)) :
    after opsB X (Proc.devRef .tc main_v4) = Cert.ReferenceIdeal.ReadP.val_main_v4 (F := F) x1 := by
  open_chunk; after_results_simp; rw [h3, h1]; rfl
theorem B_v6 : after opsB X (Proc.devRef .tc main_v6) = Cert.ReferenceIdeal.ReadP.val_main_v6 (F := F) (X (Proc.devRef .tc main_arg1)) := by
  open_chunk; after_results_simp <;> rfl
theorem B_keep_v0 : after opsB X (Proc.devRef .tc main_v0) = X (Proc.devRef .tc main_v0) := by open_chunk; after_results_simp <;> rfl
theorem B_keep_v1 : after opsB X (Proc.devRef .tc main_v1) = X (Proc.devRef .tc main_v1) := by open_chunk; after_results_simp <;> rfl
theorem B_keep_arg1 : after opsB X (Proc.devRef .tc main_arg1) = X (Proc.devRef .tc main_arg1) := by open_chunk; after_results_simp <;> rfl
theorem B_keep_arg3 : after opsB X (Proc.devRef .tc main_arg3) = X (Proc.devRef .tc main_arg3) := by open_chunk; after_results_simp <;> rfl
theorem B_keep_arg4 : after opsB X (Proc.devRef .tc main_arg4) = X (Proc.devRef .tc main_arg4) := by open_chunk; after_results_simp <;> rfl
theorem B_keep_arg5 : after opsB X (Proc.devRef .tc main_arg5) = X (Proc.devRef .tc main_arg5) := by open_chunk; after_results_simp <;> rfl

/-! ## Stretch C: layer 1 and the second product; the node numbers and the edge sources again -/

set_option maxHeartbeats 4000000 in
theorem C_v48 (x0 : (⟨S100000x500, .f32⟩ : BufTy).Contents (Elt F)) (x1 : (⟨S2x3200000, .i32⟩ : BufTy).Contents (Elt F)) (x2 : (⟨S500x16, .f32⟩ : BufTy).Contents (Elt F))
    (x3 : (⟨S16, .f32⟩ : BufTy).Contents (Elt F)) (x4 : (⟨S16x40, .f32⟩ : BufTy).Contents (Elt F))
    (h0 : X (Proc.devRef .tc main_v0) = Cert.ReferenceIdeal.ReadP.val_main_v0 (F := F) x0 x2) (h1 : X (Proc.devRef .tc main_v1) = Cert.ReferenceIdeal.ReadP.val_main_v1 (F := F))
    (h4 : X (Proc.devRef .tc main_v4) = Cert.ReferenceIdeal.ReadP.val_main_v4 (F := F) x1) (h6 : X (Proc.devRef .tc main_v6) = Cert.ReferenceIdeal.ReadP.val_main_v6 (F := F) x1)
    (ha3 : X (Proc.devRef .tc main_arg3) = x3) (ha4 : X (Proc.devRef .tc main_arg4) = x4) :
    after opsC X (Proc.devRef .tc main_v48) = Cert.ReferenceIdeal.ReadP.val_main_v48 (F := F) x0 x1 x2 x3 x4 := by
  open_chunk; after_results_simp
  try simp only [TRef.ofBuf, TRef.toBuf, cast_eq]
  rw [h0, h1, h4, h6, ha3, ha4]; rfl
theorem C_v49 : after opsC X (Proc.devRef .tc main_v49) = Cert.ReferenceIdeal.ReadP.val_main_v49 (F := F) := by open_chunk; after_results_simp <;> rfl
theorem C_v51 : after opsC X (Proc.devRef .tc main_v51) = Cert.ReferenceIdeal.ReadP.val_main_v51 (F := F) (X (Proc.devRef .tc main_arg1)) := by
  open_chunk; after_results_simp <;> rfl
theorem C_keep_arg1 : after opsC X (Proc.devRef .tc main_arg1) = X (Proc.devRef .tc main_arg1) := by open_chunk; after_results_simp <;> rfl
theorem C_keep_arg5 : after opsC X (Proc.devRef .tc main_arg5) = X (Proc.devRef .tc main_arg5) := by open_chunk; after_results_simp <;> rfl

/-! ## Stretch D: the sources with the self loops again; the edge targets again -/

theorem D_v52 (x1 : (⟨S2x3200000, .i32⟩ : BufTy).Contents (Elt F)) (h51 : X (Proc.devRef .tc main_v51) = Cert.ReferenceIdeal.ReadP.val_main_v51 (F := F) x1)
    (h49 : X (Proc.devRef .tc main_v49) = Cert.ReferenceIdeal.ReadP.val_main_v49 (F := F)) :
    after opsD X (Proc.devRef .tc main_v52) = Cert.ReferenceIdeal.ReadP.val_main_v52 (F := F) x1 := by
  open_chunk; after_results_simp; rw [h51, h49]; rfl
theorem D_v54 : after opsD X (Proc.devRef .tc main_v54) = Cert.ReferenceIdeal.ReadP.val_main_v54 (F := F) (X (Proc.devRef .tc main_arg1)) := by
  open_chunk; after_results_simp <;> rfl
theorem D_keep_v48 : after opsD X (Proc.devRef .tc main_v48) = X (Proc.devRef .tc main_v48) := by open_chunk; after_results_simp <;> rfl
theorem D_keep_v49 : after opsD X (Proc.devRef .tc main_v49) = X (Proc.devRef .tc main_v49) := by open_chunk; after_results_simp <;> rfl
theorem D_keep_arg5 : after opsD X (Proc.devRef .tc main_arg5) = X (Proc.devRef .tc main_arg5) := by open_chunk; after_results_simp <;> rfl

/-! ## Stretch E: layer 2's aggregation and the bias -/

set_option maxHeartbeats 4000000 in
theorem E_v94 (x0 : (⟨S100000x500, .f32⟩ : BufTy).Contents (Elt F)) (x1 : (⟨S2x3200000, .i32⟩ : BufTy).Contents (Elt F)) (x2 : (⟨S500x16, .f32⟩ : BufTy).Contents (Elt F))
    (x3 : (⟨S16, .f32⟩ : BufTy).Contents (Elt F)) (x4 : (⟨S16x40, .f32⟩ : BufTy).Contents (Elt F)) (x5 : (⟨S40, .f32⟩ : BufTy).Contents (Elt F))
    (h48 : X (Proc.devRef .tc main_v48) = Cert.ReferenceIdeal.ReadP.val_main_v48 (F := F) x0 x1 x2 x3 x4) (h49 : X (Proc.devRef .tc main_v49) = Cert.ReferenceIdeal.ReadP.val_main_v49 (F := F))
    (h52 : X (Proc.devRef .tc main_v52) = Cert.ReferenceIdeal.ReadP.val_main_v52 (F := F) x1) (h54 : X (Proc.devRef .tc main_v54) = Cert.ReferenceIdeal.ReadP.val_main_v54 (F := F) x1)
    (ha5 : X (Proc.devRef .tc main_arg5) = x5) :
    after opsE X (Proc.devRef .tc main_v94) = Cert.ReferenceIdeal.ReadP.val_main_v94 (F := F) x0 x1 x2 x3 x4 x5 := by
  open_chunk; after_results_simp
  try simp only [TRef.ofBuf, TRef.toBuf, cast_eq]
  rw [h48, h49, h52, h54, ha5]; rfl

/-! ## Stretch G: the log-softmax of the biased scores -/

set_option maxHeartbeats 4000000 in
theorem G_v95 (x0 : (⟨S100000x500, .f32⟩ : BufTy).Contents (Elt F)) (x1 : (⟨S2x3200000, .i32⟩ : BufTy).Contents (Elt F)) (x2 : (⟨S500x16, .f32⟩ : BufTy).Contents (Elt F))
    (x3 : (⟨S16, .f32⟩ : BufTy).Contents (Elt F)) (x4 : (⟨S16x40, .f32⟩ : BufTy).Contents (Elt F)) (x5 : (⟨S40, .f32⟩ : BufTy).Contents (Elt F))
    (h94 : X (Proc.devRef .tc main_v94) = Cert.ReferenceIdeal.ReadP.val_main_v94 (F := F) x0 x1 x2 x3 x4 x5) :
    after opsG X (Proc.devRef .tc main_v95) = Cert.ReferenceIdeal.ReadP.val_main_v95 (F := F) x0 x1 x2 x3 x4 x5 := by
  open_chunk; after_results_simp
  simp only [ofBuf_toBuf]
  rw [h94]; rfl

/-! ## The stretches chained -/

/-- From any buffer contents, the result buffer after the whole list holds the reference's last stage of the six
    argument buffers' contents. -/
theorem result_stage (M : Valuation τ sig (Elt F)) :
    after (ops (F := F)) M (Proc.devRef .tc main_v95) = Cert.ReferenceIdeal.ReadP.val_main_v95 (F := F) (M (Proc.devRef .tc main_arg0)) (M (Proc.devRef .tc main_arg1))
      (M (Proc.devRef .tc main_arg2)) (M (Proc.devRef .tc main_arg3)) (M (Proc.devRef .tc main_arg4)) (M (Proc.devRef .tc main_arg5)) := by
  rw [ops_split, after_append, after_append, after_append, after_append, after_append]
  -- the argument buffers as the later stretches find them
  have b_arg1 := (B_keep_arg1 (after opsA M)).trans (A_keep_arg1 M)
  have b_arg3 := (B_keep_arg3 (after opsA M)).trans (A_keep_arg3 M)
  have b_arg4 := (B_keep_arg4 (after opsA M)).trans (A_keep_arg4 M)
  have b_arg5 := (B_keep_arg5 (after opsA M)).trans (A_keep_arg5 M)
  have c_arg1 := (C_keep_arg1 (after opsB (after opsA M))).trans b_arg1
  have c_arg5 := (C_keep_arg5 (after opsB (after opsA M))).trans b_arg5
  have d_arg5 := (D_keep_arg5 (after opsC (after opsB (after opsA M)))).trans c_arg5
  -- the stages, stretch by stretch
  have b_v0 := (B_keep_v0 (after opsA M)).trans (A_v0 M)
  have b_v1 := (B_keep_v1 (after opsA M)).trans (A_v1 M)
  have b_v4 := B_v4 (after opsA M) (M (Proc.devRef .tc main_arg1)) (A_v3 M) (A_v1 M)
  have b_v6 := (B_v6 (after opsA M)).trans (congrArg (Cert.ReferenceIdeal.ReadP.val_main_v6 (F := F)) (A_keep_arg1 M))
  have c_v48 := C_v48 (after opsB (after opsA M)) (M (Proc.devRef .tc main_arg0)) (M (Proc.devRef .tc main_arg1)) (M (Proc.devRef .tc main_arg2))
    (M (Proc.devRef .tc main_arg3)) (M (Proc.devRef .tc main_arg4)) b_v0 b_v1 b_v4 b_v6 b_arg3 b_arg4
  have c_v49 := C_v49 (after opsB (after opsA M))
  have c_v51 := (C_v51 (after opsB (after opsA M))).trans (congrArg (Cert.ReferenceIdeal.ReadP.val_main_v51 (F := F)) b_arg1)
  have d_v48 := (D_keep_v48 (after opsC (after opsB (after opsA M)))).trans c_v48
  have d_v49 := (D_keep_v49 (after opsC (after opsB (after opsA M)))).trans c_v49
  have d_v52 := D_v52 (after opsC (after opsB (after opsA M))) (M (Proc.devRef .tc main_arg1)) c_v51 c_v49
  have d_v54 := (D_v54 (after opsC (after opsB (after opsA M)))).trans (congrArg (Cert.ReferenceIdeal.ReadP.val_main_v54 (F := F)) c_arg1)
  have e_v94 := E_v94 (after opsD (after opsC (after opsB (after opsA M)))) (M (Proc.devRef .tc main_arg0)) (M (Proc.devRef .tc main_arg1)) (M (Proc.devRef .tc main_arg2))
    (M (Proc.devRef .tc main_arg3)) (M (Proc.devRef .tc main_arg4)) (M (Proc.devRef .tc main_arg5)) d_v48 d_v49 d_v52 d_v54 d_arg5
  exact G_v95 (after opsE (after opsD (after opsC (after opsB (after opsA M))))) _ _ _ _ _ _ e_v94

/-! ## The run -/

set_option maxRecDepth 16384 in
set_option maxHeartbeats 55200000 in
/-- On every device, from any memory with zero counters: every weakly fair execution of the reference terminates with
    its result at the last stage of the launch arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Cert.ReferenceIdeal.ReadP.val_main_v95 (F := F) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (result_stage _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.ValueP.scopedRefs_eq Cert.ReferenceIdeal.ValueP.scopedSems_eq defs main (fun _ => ops)
      Cert.ReferenceIdeal.ValueP.main_eq (fun _ => Cert.ReferenceIdeal.ValueP.ops_sub) m ρ)

end Cert.ReferenceIdeal.Stages

end
-- ==== Proof.Stretch.lean ====
/-
  The host operations between the kernel regions, read one stretch at a time from ANY buffer contents `X`.
  Around its four kernel regions the kernel program runs the same graph plumbing as the reference: the edge list with
  self loops appended (sources and targets), the target degrees and their inverse square roots, the per-edge
  normalisation, and for each layer the gather of source rows, their scaling and the scatter-add into target rows.
  Each lemma says: if the buffers a stretch reads hold the reference's stages, the buffer it writes holds the
  reference's next stage. The reference builds the edge list and the normalisation twice (once per layer) from the
  same operations of the same edge input; the two builds are one value.
-/
import proofs.«156435_j30116310680051_1_alg».proof.Proof.Gen.KernelIdeal.Launch
import proofs.«156435_j30116310680051_1_alg».proof.Proof.RefRead
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]

/-! ## The reference's second build of the edge list and of the normalisation is its first -/

theorem src_again (x1 : (⟨Cert.ReferenceIdeal.S2x3200000, .i32⟩ : BufTy).Contents (Elt F)) : Cert.ReferenceIdeal.ReadP.val_main_v52 (F := F) x1 = Cert.ReferenceIdeal.ReadP.val_main_v4 (F := F) x1 := rfl
theorem dst_again (x1 : (⟨Cert.ReferenceIdeal.S2x3200000, .i32⟩ : BufTy).Contents (Elt F)) : Cert.ReferenceIdeal.ReadP.val_main_v55 (F := F) x1 = Cert.ReferenceIdeal.ReadP.val_main_v7 (F := F) x1 := rfl
theorem norm_again (x1 : (⟨Cert.ReferenceIdeal.S2x3200000, .i32⟩ : BufTy).Contents (Elt F)) : Cert.ReferenceIdeal.ReadP.val_main_v86 (F := F) x1 = Cert.ReferenceIdeal.ReadP.val_main_v38 (F := F) x1 := rfl

/-! ## Before the first region: the edge list and the normalisation, from the edge input -/

variable (X : Valuation τ sig (Elt F))

/-- The three stretches before the first region, as one fold. -/
abbrev pre : Valuation τ sig (Elt F) := after hostOps0_2 (after hostOps0_1 (after hostOps0 X))

set_option maxHeartbeats 4000000 in
/-- Edge sources with the self loops appended. -/
theorem pre_src : pre X (Proc.devRef .tc main_v3) = Cert.ReferenceIdeal.ReadP.val_main_v4 (F := F) (X (Proc.devRef .tc main_arg1)) := by
  dsimp only [pre]; after_results_simp <;> rfl
set_option maxHeartbeats 4000000 in
/-- Edge targets with the self loops appended. -/
theorem pre_dst : pre X (Proc.devRef .tc main_v6) = Cert.ReferenceIdeal.ReadP.val_main_v7 (F := F) (X (Proc.devRef .tc main_arg1)) := by
  dsimp only [pre]; after_results_simp <;> rfl
set_option maxHeartbeats 4000000 in
/-- The per-edge normalisation, as a column. -/
theorem pre_norm : pre X (Proc.devRef .tc main_v30) = Cert.ReferenceIdeal.ReadP.val_main_v38 (F := F) (X (Proc.devRef .tc main_arg1)) := by
  dsimp only [pre]; after_results_simp <;> rfl

set_option maxHeartbeats 4000000 in
theorem pre_keep_arg0 : pre X (Proc.devRef .tc main_arg0) = X (Proc.devRef .tc main_arg0) := by
  dsimp only [pre]; after_results_simp <;> rfl
set_option maxHeartbeats 4000000 in
theorem pre_keep_arg2 : pre X (Proc.devRef .tc main_arg2) = X (Proc.devRef .tc main_arg2) := by
  dsimp only [pre]; after_results_simp <;> rfl
set_option maxHeartbeats 4000000 in
theorem pre_keep_arg3 : pre X (Proc.devRef .tc main_arg3) = X (Proc.devRef .tc main_arg3) := by
  dsimp only [pre]; after_results_simp <;> rfl
set_option maxHeartbeats 4000000 in
theorem pre_keep_arg4 : pre X (Proc.devRef .tc main_arg4) = X (Proc.devRef .tc main_arg4) := by
  dsimp only [pre]; after_results_simp <;> rfl
set_option maxHeartbeats 4000000 in
theorem pre_keep_arg5 : pre X (Proc.devRef .tc main_arg5) = X (Proc.devRef .tc main_arg5) := by
  dsimp only [pre]; after_results_simp <;> rfl

/-! ## Between the first and the second region: layer 1's aggregation, and the bias as a row -/

set_option maxHeartbeats 4000000 in
/-- Gather the source rows of the projected features, scale by the normalisation, add into the target rows. -/
theorem mid_agg (x0 : (⟨Cert.ReferenceIdeal.S100000x500, .f32⟩ : BufTy).Contents (Elt F)) (x1 : (⟨Cert.ReferenceIdeal.S2x3200000, .i32⟩ : BufTy).Contents (Elt F)) (x2 : (⟨Cert.ReferenceIdeal.S500x16, .f32⟩ : BufTy).Contents (Elt F))
    (hh : X (Proc.devRef .tc main_v31) = Cert.ReferenceIdeal.ReadP.val_main_v0 (F := F) x0 x2)
    (hs : X (Proc.devRef .tc main_v3) = Cert.ReferenceIdeal.ReadP.val_main_v4 (F := F) x1)
    (hd : X (Proc.devRef .tc main_v6) = Cert.ReferenceIdeal.ReadP.val_main_v7 (F := F) x1)
    (hn : X (Proc.devRef .tc main_v30) = Cert.ReferenceIdeal.ReadP.val_main_v38 (F := F) x1) :
    after hostOps1 X (Proc.devRef .tc main_v43) = Cert.ReferenceIdeal.ReadP.val_main_v43 (F := F) x0 x1 x2 := by
  after_results_simp
  rw [hh, hs, hd, hn]; rfl

/-- The first bias as a one-row matrix. -/
theorem mid_bias : after hostOps1 X (Proc.devRef .tc main_v44) = shapeCast S1x16 (X (Proc.devRef .tc main_arg3)) shapeCasts_S16_S1x16 := by
  after_results_simp <;> rfl

theorem mid_keep_v3 : after hostOps1 X (Proc.devRef .tc main_v3) = X (Proc.devRef .tc main_v3) := by after_results_simp <;> rfl
theorem mid_keep_v6 : after hostOps1 X (Proc.devRef .tc main_v6) = X (Proc.devRef .tc main_v6) := by after_results_simp <;> rfl
theorem mid_keep_v30 : after hostOps1 X (Proc.devRef .tc main_v30) = X (Proc.devRef .tc main_v30) := by after_results_simp <;> rfl
theorem mid_keep_arg4 : after hostOps1 X (Proc.devRef .tc main_arg4) = X (Proc.devRef .tc main_arg4) := by after_results_simp <;> rfl
theorem mid_keep_arg5 : after hostOps1 X (Proc.devRef .tc main_arg5) = X (Proc.devRef .tc main_arg5) := by after_results_simp <;> rfl

/-! ## Between the third and the fourth region: layer 2's aggregation, and the bias as a row -/

set_option maxHeartbeats 4000000 in
theorem last_agg (x0 : (⟨Cert.ReferenceIdeal.S100000x500, .f32⟩ : BufTy).Contents (Elt F)) (x1 : (⟨Cert.ReferenceIdeal.S2x3200000, .i32⟩ : BufTy).Contents (Elt F)) (x2 : (⟨Cert.ReferenceIdeal.S500x16, .f32⟩ : BufTy).Contents (Elt F))
    (x3 : (⟨Cert.ReferenceIdeal.S16, .f32⟩ : BufTy).Contents (Elt F)) (x4 : (⟨Cert.ReferenceIdeal.S16x40, .f32⟩ : BufTy).Contents (Elt F))
    (hh : X (Proc.devRef .tc main_v46) = Cert.ReferenceIdeal.ReadP.val_main_v48 (F := F) x0 x1 x2 x3 x4)
    (hs : X (Proc.devRef .tc main_v3) = Cert.ReferenceIdeal.ReadP.val_main_v4 (F := F) x1)
    (hd : X (Proc.devRef .tc main_v6) = Cert.ReferenceIdeal.ReadP.val_main_v7 (F := F) x1)
    (hn : X (Proc.devRef .tc main_v30) = Cert.ReferenceIdeal.ReadP.val_main_v38 (F := F) x1) :
    after hostOps3 X (Proc.devRef .tc main_v58) = Cert.ReferenceIdeal.ReadP.val_main_v91 (F := F) x0 x1 x2 x3 x4 := by
  after_results_simp
  rw [hh, hs, hd, hn, ← src_again, ← dst_again, ← norm_again]; rfl

/-- The second bias as a one-row matrix. -/
theorem last_bias : after hostOps3 X (Proc.devRef .tc main_v59) = shapeCast S1x40 (X (Proc.devRef .tc main_arg5)) shapeCasts_S40_S1x40 := by
  after_results_simp <;> rfl

end Cert.KernelIdeal.Stretch

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Reg0.lean ====
/-
  The first linear layer, region by region: each of the 25 grid points multiplies a block of 4000 rows of the
  node-feature matrix (all 500 columns) by the whole 500 x 16 weight matrix, into a zero accumulator, and writes the
  4000 x 16 product back as the same 4000 rows of the output. The operands are narrowed to bf16 first, which on the
  extended reals changes nothing. So entry (4000 t + a, b) of the output is the sum over k of x[4000 t + a, k] * w[k, b]:
  the same sum the reference's one whole product has at that entry. The 25 row blocks tile the 100000 rows, so the output
  array after the region IS the reference's product of the two arrays the region found.
-/
import proofs.«156435_j30116310680051_1_alg».proof.Proof.Gen.KernelIdeal.Frame
import proofs.«156435_j30116310680051_1_alg».proof.Proof.RefRead
import proofs.«156435_j30116310680051_1_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the buffer contents the region is entered from
variable (V : (c : Dev nD) → (b : Ref sig .tc) → Buf (Elt Ideal) ((c : Thread nD τ).loc b))

theorem off_zero : (![0, 0] : Fin 2 → Nat) = fun _ => 0 := funext fun a => by fin_cases a <;> rfl

/-- One entry of one point's product: if the left block is rows `4000 r …` of `X` and the right block is `W`, entry
    `j` of the block's product is the reference's whole product of `X` and `W` at row `4000 r + j₀`, column `j₁`. -/
theorem entry_eq (X : (⟨Cert.ReferenceIdeal.S100000x500, .f32⟩ : BufTy).Contents (Elt Ideal))
    (W : (⟨Cert.ReferenceIdeal.S500x16, .f32⟩ : BufTy).Contents (Elt Ideal))
    (x0 : Vec Ideal S4000x500 .f32) (x1 : Vec Ideal S500x16 .f32) (r : Nat)
    (h0 : ∀ (a : Fin 4000) (k : Fin 500) (i : Cert.ReferenceIdeal.S100000x500.Idx),
      (i 0).val = r * 4000 + a.val → (i 1).val = k.val → x0 (ix2 a k) = X i)
    (h1 : ∀ (k : Fin 500) (b : Fin 16) (i : Cert.ReferenceIdeal.S500x16.Idx),
      (i 0).val = k.val → (i 1).val = b.val → x1 (ix2 k b) = W i)
    (j : S4000x16.Idx) (i : Cert.ReferenceIdeal.S100000x16.Idx)
    (hi0 : (i 0).val = r * 4000 + (j 0).val) (hi1 : (i 1).val = (j 1).val) :
    k0_pay1 x0 x1 j = Cert.ReferenceIdeal.ReadP.val_main_v0 (F := Ideal) X W i := by
  obtain ⟨a, b, rfl⟩ : ∃ (a : Fin 4000) (b : Fin 16), j = ix2 a b := ⟨j 0, j 1, eq_ix2 j⟩
  rw [Cert.ReferenceIdeal.ReadP.val_main_v0_apply]
  unfold k0_pay1
  refine (Cert.LibDot.matmul_10_zero_apply dot_S4000x500_S500x16_S4000x16_1_0_0_1_n_n rfl rfl rfl rfl rfl rfl none _ _ a b).trans ?_
  refine Finset.sum_congr rfl fun k _ => ?_
  show x0 (ix2 a k) * x1 (ix2 k b) = _
  rw [h0 a k (Cert.ReferenceIdeal.ReadP.lidx_main_v0 i k) hi0 rfl, h1 k b (Cert.ReferenceIdeal.ReadP.ridx_main_v0 i k) rfl hi1]

/-- The printed index maps over the grid: the row block of the left operand and of the output is the point's number,
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the reference's product of the arrays the region found. -/
theorem flushed_eq (c : Dev nD) (t : Fin cfg0.N) :
    (dat0 V c).flushed 2 t = ((cfg0.win 2).blk t).view.read (Elt Ideal)
      (Cert.ReferenceIdeal.ReadP.val_main_v0 (F := Ideal) (V c main_arg0) (V c main_arg2)) := by
  show (cfg0.win 2).cut (grid0.coords t) ((dat0 V c).after 2 t) = _
  rw [after0_2]
  unfold out0_2
  rw [View.canon_unit_zero off_zero]
  simp only [View.ld_unit_zero (S := S4000x500) off_zero, View.ld_unit_zero (S := S500x16) off_zero]
  obtain ⟨e0, e1, e2, e3, e4, e5⟩ := idx_facts t
  funext j
  refine entry_eq (V c main_arg0) (V c main_arg2) (iblk0 V c 0 t) (iblk0 V c 1 t) t.val ?_ ?_ j _ ?_ ?_
  · intro a k i hi0 hi1
    show V c main_arg0 (((cfg0.win 0).blk t).view.emb (ix2 a k)) = V c main_arg0 i
    refine congrArg _ (funext fun ax => Fin.ext ?_)
    match ax with
    | ⟨0, _⟩ => show win0_0.index t (0 : Fin 2) * 4000 + 1 * a.val = (i 0).val; omega
    | ⟨1, _⟩ => show win0_0.index t (1 : Fin 2) * 500 + 1 * k.val = (i 1).val; omega
  · intro k b i hi0 hi1
    show V c main_arg2 (((cfg0.win 1).blk t).view.emb (ix2 k b)) = V c main_arg2 i
    refine congrArg _ (funext fun ax => Fin.ext ?_)
    match ax with
    | ⟨0, _⟩ => show win0_1.index t (0 : Fin 2) * 500 + 1 * k.val = (i 0).val; omega
    | ⟨1, _⟩ => show win0_1.index t (1 : Fin 2) * 16 + 1 * b.val = (i 1).val; omega
  · show win0_2.index t (0 : Fin 2) * 4000 + 1 * (j 0).val = t.val * 4000 + (j 0).val; omega
  · show win0_2.index t (1 : Fin 2) * 16 + 1 * (j 1).val = (j 1).val; omega

/-- An index of the output array is in point `t`'s block iff each coordinate is in the block's range on its axis. -/
theorem mem_blk (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v31).slice (win0_2.rect t)).set ↔ _
  rw [View.set_slice_whole, Rect.mem_set_unit]
  exact Iff.rfl

/-- Every row of the output lies in the block of the point numbered by the row's quotient by 4000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  refine ⟨⟨(i 0).val / 4000, by show (i 0).val / 4000 < 25; omega⟩, flush0_2 _, ?_⟩
  rw [mem_blk]
  obtain ⟨e0, e1, e2, e3, e4, e5⟩ := idx_facts ⟨(i 0).val / 4000, by show (i 0).val / 4000 < 25; omega⟩
  intro a
  match a with
  | ⟨0, _⟩ => show win0_2.index _ (0 : Fin 2) * 4000 ≤ (i 0).val ∧ (i 0).val < win0_2.index _ (0 : Fin 2) * 4000 + 4000; rw [e4]; show (i 0).val / 4000 * 4000 ≤ _ ∧ _ < (i 0).val / 4000 * 4000 + 4000; omega
  | ⟨1, _⟩ => show win0_2.index _ (1 : Fin 2) * 16 ≤ (i 1).val ∧ (i 1).val < win0_2.index _ (1 : Fin 2) * 16 + 16; rw [e5]; omega

/-- The output array after the region: the reference's whole product of the two arrays the region found. -/
theorem array_eq (c : Dev nD) :
    (dat0 V c).arrAt 2 cfg0.N = Cert.ReferenceIdeal.ReadP.val_main_v0 (F := Ideal) (V c main_arg0) (V c main_arg2) :=
  (dat0 V c).arrAt_eq_of_cover 2 _ (fun t _ => flushed_eq V c t) cover

end Cert.KernelIdeal.Reg0

end
-- ==== Proof.Reg1.lean ====
/-
  The first layer's epilogue, region by region: each of the 25 grid points takes a block of 4000 rows of the aggregated
  features (all 16 columns), adds the bias (held as one row, broadcast down the block) and takes the maximum with zero,
  writing the block back as the same 4000 rows of the output. Entry (4000 t + a, b) of the output is
  max (agg[4000 t + a, b] + bias[b], 0): the reference's bias add and rectifier at that entry. The 25 row blocks tile the
  rows, so when the aggregated features are the reference's, the output array after the region is the reference's
  hidden activations.
-/
import proofs.«156435_j30116310680051_1_alg».proof.Proof.Gen.KernelIdeal.Frame
import proofs.«156435_j30116310680051_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the buffer contents the region is entered from
variable (V : (c : Dev nD) → (b : Ref sig .tc) → Buf (Elt Ideal) ((c : Thread nD τ).loc b))

theorem off_zero : (![0, 0] : Fin 2 → Nat) = fun _ => 0 := funext fun a => by fin_cases a <;> rfl

/-- One entry of one point's block: if the feature block is rows `4000 r …` of the reference's aggregated features and
    the row block is the bias, entry `j` of what the body stores is the reference's hidden activation at row
    `4000 r + j₀`, column `j₁`. -/
theorem entry_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal))
    (y0 : FVec Ideal S4000x16 .f32) (y1 : FVec Ideal S1x16 .f32) (r : Nat)
    (h0 : ∀ (j : S4000x16.Idx) (i : Cert.ReferenceIdeal.S100000x16.Idx),
      (i 0).val = r * 4000 + (j 0).val → (i 1).val = (j 1).val → y0 j = Cert.ReferenceIdeal.ReadP.val_main_v43 (F := Ideal) a0 a1 a2 i)
    (h1 : ∀ (b : Fin 16) (i : Cert.ReferenceIdeal.S16.Idx), (i 0).val = b.val → y1 (ix2 (0 : Fin 1) b) = a3 i)
    (j : S4000x16.Idx) (i : Cert.ReferenceIdeal.S100000x16.Idx)
    (hi0 : (i 0).val = r * 4000 + (j 0).val) (hi1 : (i 1).val = (j 1).val) :
    k1_pay1 (F := Ideal) y0 y1 j = Cert.ReferenceIdeal.ReadP.val_main_v47 (F := Ideal) a0 a1 a2 a3 i := by
  obtain ⟨a, b, rfl⟩ : ∃ (a : Fin 4000) (b : Fin 16), j = ix2 a b := ⟨j 0, j 1, eq_ix2 j⟩
  rw [Cert.ReferenceIdeal.ReadP.val_main_v47_apply, Cert.ReferenceIdeal.ReadP.val_main_v46_apply, Cert.ReferenceIdeal.ReadP.val_main_v45_apply, Cert.ReferenceIdeal.ReadP.val_main_v44_apply,
    Cert.ReferenceIdeal.ReadP.val_main_call1_v0_apply, Cert.ReferenceIdeal.ReadP.val_main_call1_cst_apply]
  unfold k1_pay1
  simp only [shapeCast_self]
  show FloatOps.maximumf (F := Ideal) (FloatOps.addf (F := Ideal) (y0 (ix2 a b)) (broadcastTo S4000x16 y1 broadcasts_S1x16_S4000x16 (ix2 a b)))
    (FloatOps.ofBits (F := Ideal) .f32 0x00000000#32) = _
  rw [broadcastTo_1b_ab_apply, h0 (ix2 a b) i hi0 hi1, h1 b (Cert.ReferenceIdeal.ReadP.idx_main_v44 (Cert.ReferenceIdeal.ReadP.idx_main_v45 i)) hi1]

/-- The printed index maps over the grid: the row block of the features and of the output is the point's number, every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the reference's hidden activations. -/
theorem flushed_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (c : Dev nD)
    (hA : V c main_v43 = Cert.ReferenceIdeal.ReadP.val_main_v43 (F := Ideal) a0 a1 a2)
    (hB : V c main_v44 = shapeCast S1x16 a3 shapeCasts_S16_S1x16) (t : Fin cfg1.N) :
    (dat1 V c).flushed 2 t = ((cfg1.win 2).blk t).view.read (Elt Ideal)
      (Cert.ReferenceIdeal.ReadP.val_main_v47 (F := Ideal) a0 a1 a2 a3) := by
  show (cfg1.win 2).cut (grid1.coords t) ((dat1 V c).after 2 t) = _
  rw [after1_2]
  unfold out1_2
  rw [View.canon_unit_zero off_zero]
  simp only [View.ld_unit_zero (S := S4000x16) off_zero, View.ld_unit_zero (S := S1x16) off_zero]
  obtain ⟨e0, e1, e2, e3, e4, e5⟩ := idx_facts t
  funext j
  rw [View.read_apply, cast_eq]
  refine entry_eq a0 a1 a2 a3 (iblk1 V c 0 t) (iblk1 V c 1 t) t.val ?_ ?_
    ((cfg1.win 2).xinj (grid1.coords t) j) (((cfg1.win 2).blk t).view.emb j) ?_ ?_
  · intro j' i hi0 hi1
    show V c main_v43 (((cfg1.win 0).blk t).view.emb j') = _
    rw [hA]
    refine congrArg (Cert.ReferenceIdeal.ReadP.val_main_v43 (F := Ideal) a0 a1 a2) (funext fun ax => Fin.ext ?_)
    match ax with
    | ⟨0, _⟩ => show win1_0.index t (0 : Fin 2) * 4000 + 1 * (j' 0).val = (i 0).val; omega
    | ⟨1, _⟩ => show win1_0.index t (1 : Fin 2) * 16 + 1 * (j' 1).val = (i 1).val; omega
  · intro b i hi
    show V c main_v44 (((cfg1.win 1).blk t).view.emb (ix2 (0 : Fin 1) b)) = _
    rw [hB]
    refine shapeCast_apply a3 shapeCasts_S16_S1x16 _ i ?_
    rw [Shape.rowMajor_val_two, Shape.rowMajor_val_one]
    show (i 0).val = (win1_1.index t (0 : Fin 2) * 1 + 1 * 0) * 16 + (win1_1.index t (1 : Fin 2) * 16 + 1 * b.val)
    omega
  · show win1_2.index t (0 : Fin 2) * 4000 + 1 * (j 0).val = t.val * 4000 + (j 0).val; omega
  · show win1_2.index t (1 : Fin 2) * 16 + 1 * (j 1).val = (j 1).val; omega

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v45).slice (win1_2.rect t)).set ↔ _
  rw [View.set_slice_whole, Rect.mem_set_unit]
  exact Iff.rfl

/-- Every row of the output lies in the block of the point numbered by the row's quotient by 4000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  refine ⟨⟨(i 0).val / 4000, by show (i 0).val / 4000 < 25; omega⟩, flush1_2 _, ?_⟩
  rw [mem_blk]
  obtain ⟨e0, e1, e2, e3, e4, e5⟩ := idx_facts ⟨(i 0).val / 4000, by show (i 0).val / 4000 < 25; omega⟩
  intro a
  match a with
  | ⟨0, _⟩ => show win1_2.index _ (0 : Fin 2) * 4000 ≤ (i 0).val ∧ (i 0).val < win1_2.index _ (0 : Fin 2) * 4000 + 4000; rw [e4]; show (i 0).val / 4000 * 4000 ≤ _ ∧ _ < (i 0).val / 4000 * 4000 + 4000; omega
  | ⟨1, _⟩ => show win1_2.index _ (1 : Fin 2) * 16 ≤ (i 1).val ∧ (i 1).val < win1_2.index _ (1 : Fin 2) * 16 + 16; rw [e5]; omega

/-- The output array after the region: the reference's hidden activations, when the region found the reference's
    aggregated features and the bias as one row. -/
theorem array_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (c : Dev nD)
    (hA : V c main_v43 = Cert.ReferenceIdeal.ReadP.val_main_v43 (F := Ideal) a0 a1 a2)
    (hB : V c main_v44 = shapeCast S1x16 a3 shapeCasts_S16_S1x16) :
    (dat1 V c).arrAt 2 cfg1.N = Cert.ReferenceIdeal.ReadP.val_main_v47 (F := Ideal) a0 a1 a2 a3 :=
  (dat1 V c).arrAt_eq_of_cover 2 _ (fun t _ => flushed_eq V a0 a1 a2 a3 c hA hB t) cover

end Cert.KernelIdeal.Reg1

end
-- ==== Proof.Reg2.lean ====
/-
  The second linear layer, region by region: each of the 25 grid points multiplies a block of 4000 rows of the hidden
  activations (all 16 columns) by the whole 16 x 40 weight matrix, into a zero accumulator, and writes the 4000 x 40
  product back as the same 4000 rows of the output. Narrowing the operands to bf16 changes nothing on the extended
  reals, and the block's cast to its own shape is the identity. So entry (4000 t + a, b) of the output is the sum over k
  of act[4000 t + a, k] * w[k, b], the entry of the reference's one whole product; the 25 row blocks tile the rows, so
  when the activations are the reference's, the output array after the region is the reference's product.
-/
import proofs.«156435_j30116310680051_1_alg».proof.Proof.Gen.KernelIdeal.Frame
import proofs.«156435_j30116310680051_1_alg».proof.Proof.RefRead
import proofs.«156435_j30116310680051_1_alg».proof.Proof.LibDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Idealize.ShloMosaic Idealize.ShloMosaic.TcCoe Idealize.ShloMosaic.ValueIdx Idealize.SL.Sem
open Cert.KernelIdeal Cert.KernelIdeal.Gen
open Idealize.ShloMosaic.Pipeline (Dat Cfg Window)

-- the buffer contents the region is entered from
variable (V : (c : Dev nD) → (b : Ref sig .tc) → Buf (Elt Ideal) ((c : Thread nD τ).loc b))

theorem off_zero : (![0, 0] : Fin 2 → Nat) = fun _ => 0 := funext fun a => by fin_cases a <;> rfl

/-- One entry of one point's product: if the left block is rows `4000 r …` of the reference's hidden activations and the
    right block is the weight matrix, entry `j` of the block's product is the reference's second product at row
    `4000 r + j₀`, column `j₁`. -/
theorem entry_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal))
    (y0 : Vec Ideal S4000x16 .f32) (y1 : Vec Ideal S16x40 .f32) (r : Nat)
    (h0 : ∀ (a : Fin 4000) (k : Fin 16) (i : Cert.ReferenceIdeal.S100000x16.Idx),
      (i 0).val = r * 4000 + a.val → (i 1).val = k.val → y0 (ix2 a k) = Cert.ReferenceIdeal.ReadP.val_main_v47 (F := Ideal) a0 a1 a2 a3 i)
    (h1 : ∀ (k : Fin 16) (b : Fin 40) (i : Cert.ReferenceIdeal.S16x40.Idx),
      (i 0).val = k.val → (i 1).val = b.val → y1 (ix2 k b) = a4 i)
    (j : S4000x40.Idx) (i : Cert.ReferenceIdeal.S100000x40.Idx)
    (hi0 : (i 0).val = r * 4000 + (j 0).val) (hi1 : (i 1).val = (j 1).val) :
    k2_pay1 y0 y1 j = Cert.ReferenceIdeal.ReadP.val_main_v48 (F := Ideal) a0 a1 a2 a3 a4 i := by
  obtain ⟨a, b, rfl⟩ : ∃ (a : Fin 4000) (b : Fin 40), j = ix2 a b := ⟨j 0, j 1, eq_ix2 j⟩
  rw [Cert.ReferenceIdeal.ReadP.val_main_v48_apply]
  unfold k2_pay1
  simp only [shapeCast_self]
  refine (Cert.LibDot.matmul_10_zero_apply dot_S4000x16_S16x40_S4000x40_1_0_0_1_n_n rfl rfl rfl rfl rfl rfl none _ _ a b).trans ?_
  refine Finset.sum_congr rfl fun k _ => ?_
  show y0 (ix2 a k) * y1 (ix2 k b) = _
  rw [h0 a k (Cert.ReferenceIdeal.ReadP.lidx_main_v48 i k) hi0 rfl, h1 k b (Cert.ReferenceIdeal.ReadP.ridx_main_v48 i k) rfl hi1]

/-- The printed index maps over the grid: the row block of the left operand and of the output is the point's number,
    every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the reference's second product. -/
theorem flushed_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal)) (c : Dev nD)
    (hA : V c main_v45 = Cert.ReferenceIdeal.ReadP.val_main_v47 (F := Ideal) a0 a1 a2 a3) (hB : V c main_arg4 = a4) (t : Fin cfg2.N) :
    (dat2 V c).flushed 2 t = ((cfg2.win 2).blk t).view.read (Elt Ideal)
      (Cert.ReferenceIdeal.ReadP.val_main_v48 (F := Ideal) a0 a1 a2 a3 a4) := by
  show (cfg2.win 2).cut (grid2.coords t) ((dat2 V c).after 2 t) = _
  rw [after2_2]
  unfold out2_2
  rw [View.canon_unit_zero off_zero]
  simp only [View.ld_unit_zero (S := S4000x16) off_zero, View.ld_unit_zero (S := S16x40) off_zero]
  obtain ⟨e0, e1, e2, e3, e4, e5⟩ := idx_facts t
  funext j
  rw [View.read_apply, cast_eq]
  refine entry_eq a0 a1 a2 a3 a4 (iblk2 V c 0 t) (iblk2 V c 1 t) t.val ?_ ?_
    ((cfg2.win 2).xinj (grid2.coords t) j) (((cfg2.win 2).blk t).view.emb j) ?_ ?_
  · intro a k i hi0 hi1
    show V c main_v45 (((cfg2.win 0).blk t).view.emb (ix2 a k)) = _
    rw [hA]
    refine congrArg (Cert.ReferenceIdeal.ReadP.val_main_v47 (F := Ideal) a0 a1 a2 a3) (funext fun ax => Fin.ext ?_)
    match ax with
    | ⟨0, _⟩ => show win2_0.index t (0 : Fin 2) * 4000 + 1 * a.val = (i 0).val; omega
    | ⟨1, _⟩ => show win2_0.index t (1 : Fin 2) * 16 + 1 * k.val = (i 1).val; omega
  · intro k b i hi0 hi1
    show V c main_arg4 (((cfg2.win 1).blk t).view.emb (ix2 k b)) = _
    rw [hB]
    refine congrArg a4 (funext fun ax => Fin.ext ?_)
    match ax with
    | ⟨0, _⟩ => show win2_1.index t (0 : Fin 2) * 16 + 1 * k.val = (i 0).val; omega
    | ⟨1, _⟩ => show win2_1.index t (1 : Fin 2) * 40 + 1 * b.val = (i 1).val; omega
  · show win2_2.index t (0 : Fin 2) * 4000 + 1 * (j 0).val = t.val * 4000 + (j 0).val; omega
  · show win2_2.index t (1 : Fin 2) * 40 + 1 * (j 1).val = (j 1).val; omega

/-- An index of the output array is in point `t`'s block iff each coordinate is in the block's range on its axis. -/
theorem mem_blk (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v46).slice (win2_2.rect t)).set ↔ _
  rw [View.set_slice_whole, Rect.mem_set_unit]
  exact Iff.rfl

/-- Every row of the output lies in the block of the point numbered by the row's quotient by 4000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  refine ⟨⟨(i 0).val / 4000, by show (i 0).val / 4000 < 25; omega⟩, flush2_2 _, ?_⟩
  rw [mem_blk]
  obtain ⟨e0, e1, e2, e3, e4, e5⟩ := idx_facts ⟨(i 0).val / 4000, by show (i 0).val / 4000 < 25; omega⟩
  intro a
  match a with
  | ⟨0, _⟩ => show win2_2.index _ (0 : Fin 2) * 4000 ≤ (i 0).val ∧ (i 0).val < win2_2.index _ (0 : Fin 2) * 4000 + 4000; rw [e4]; show (i 0).val / 4000 * 4000 ≤ _ ∧ _ < (i 0).val / 4000 * 4000 + 4000; omega
  | ⟨1, _⟩ => show win2_2.index _ (1 : Fin 2) * 40 ≤ (i 1).val ∧ (i 1).val < win2_2.index _ (1 : Fin 2) * 40 + 40; rw [e5]; omega

/-- The output array after the region: the reference's second product, when the region found the reference's hidden
    activations and the weight matrix. -/
theorem array_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal)) (c : Dev nD)
    (hA : V c main_v45 = Cert.ReferenceIdeal.ReadP.val_main_v47 (F := Ideal) a0 a1 a2 a3) (hB : V c main_arg4 = a4) :
    (dat2 V c).arrAt 2 cfg2.N = Cert.ReferenceIdeal.ReadP.val_main_v48 (F := Ideal) a0 a1 a2 a3 a4 :=
  (dat2 V c).arrAt_eq_of_cover 2 _ (fun t _ => flushed_eq V a0 a1 a2 a3 a4 c hA hB t) cover

end Cert.KernelIdeal.Reg2

end
-- ==== Proof.LibCol.lean ====
/-
  Column forms of the layout operations, read at an entry: a vector of length `a` cast to an `a × 1` column reads its
  entry `i` at `(i, 0)`, and an `a × 1` column broadcast to `a × b` reads, at `(p, c)`, the column's entry `p`.
  (The value library has the row forms, `1 × a`; these are the same two facts for a trailing unit axis.)
  Also: the f32 word of negative infinity is the bottom extended real.
-/
import Idealize.ShloMosaic.Lib.ValueLayout
import Idealize.ShloMosaic.Lib.ValueIdx
import Idealize.ShloMosaic.PureOps.Ideal.Laws

noncomputable section

namespace Cert.LibCol

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 word of negative infinity is the least extended real. -/
theorem ofBits_neg_inf_f32 : Ideal.ofBits .f32 0xFF800000#32 = (⊥ : EReal) := by simp [Ideal.ofBits, Ideal.ieee]

end Cert.LibCol

end
-- ==== Proof.LibLogSoftmax.lean ====
/-
  A row's log-softmax as the kernel computes it, read at an entry on the extended reals.

  For a row `w` of `n` extended reals, `rowLse w b = (w b - M) - log (∑ k, exp (w k - M))`, where `M` is the maximum of
  the row, folded from negative infinity. The kernel's form on an `m × n` block `v`: take each row's maximum (a lane
  reduction from negative infinity), make it a column, broadcast it over the row and subtract; exponentiate; sum each
  row (a lane reduction from zero), make it a column, take its logarithm, broadcast and subtract. Read at entry
  `(a, b)` this is `rowLse` of row `a` at `b`: every step reads row `a` only.
-/
import proofs.«156435_j30116310680051_1_alg».proof.Proof.LibCol
import Idealize.ShloMosaic.Lib.ValueIdx
import Idealize.ShloMosaic.PureOps.Ideal.Laws

noncomputable section

open scoped BigOperators

namespace Cert.LibLogSoftmax

open Idealize.ShloMosaic Idealize.ShloMosaic.ValueIdx

/-- The shifted log-softmax of a row at one position: the entry minus the row's maximum, minus the logarithm of the sum
    of the exponentials of the shifted row. -/
def rowLse {n : ℕ} (w : Fin n → EReal) (b : Fin n) : EReal :=
  (w b - (Finset.univ : Finset (Fin n)).fold max (Ideal.ofBits .f32 0xFF800000#32) w)
    - Ideal.log (∑ k : Fin n, Ideal.exp (w k - (Finset.univ : Finset (Fin n)).fold max (Ideal.ofBits .f32 0xFF800000#32) w))

variable {m n : ℕ}

/-- Row `a` of an `m × n` index set with the lane coordinate `k` put back is `(a, k)`. -/
theorem lift_row (hr : (⟨2, ![m, n]⟩ : Shape).Reduces [1] ⟨1, ![m]⟩) (a : Fin m) (k : Fin n) :
    hr.lift (ix1 a) k = ix2 a k :=
  funext fun ax => Fin.ext (by match ax with | ⟨0, _⟩ => rfl | ⟨1, _⟩ => rfl)

/-- A row's lane maximum from negative infinity, at row `a`. -/
theorem rowMax_apply (v : FVec Ideal ⟨2, ![m, n]⟩ .f32) (hr : (⟨2, ![m, n]⟩ : Shape).Reduces [1] ⟨1, ![m]⟩) (a : Fin m) :
    multiReduction .maximumf [1] ⟨1, ![m]⟩ v 0xFF800000#32 hr (.inl rfl) rfl (ix1 a)
      = (Finset.univ : Finset (Fin n)).fold max (Ideal.ofBits .f32 0xFF800000#32) (fun k => v (ix2 a k)) := by
  refine (Ideal.multiReduction_maximumf_single v 0xFF800000#32 hr (.inl rfl) rfl (ix1 a)).trans ?_
  exact congrArg ((Finset.univ : Finset (Fin n)).fold max (Ideal.ofBits .f32 0xFF800000#32))
    (funext fun k => congrArg v (lift_row hr a k))

/-- A row's lane sum from zero, at row `a`. -/
theorem rowSum_apply (v : FVec Ideal ⟨2, ![m, n]⟩ .f32) (hr : (⟨2, ![m, n]⟩ : Shape).Reduces [1] ⟨1, ![m]⟩) (a : Fin m) :
    multiReduction .add [1] ⟨1, ![m]⟩ v 0x00000000#32 hr (.inl rfl) rfl (ix1 a) = ∑ k : Fin n, v (ix2 a k) := by
  refine (Ideal.multiReduction_add_single v 0x00000000#32 hr (.inl rfl) rfl (ix1 a)).trans ?_
  exact Finset.sum_congr rfl fun k _ => congrArg v (lift_row hr a k)

/-- The kernel's form of the row log-softmax, read at entry `(a, b)`. -/
theorem kernel_form_apply (v : FVec Ideal ⟨2, ![m, n]⟩ .f32)
    (hr : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (a : Fin m) (b : Fin n) :
    subf (subf v (broadcastTo ⟨2, ![m, n]⟩ (shapeCast ⟨2, ![m, 1]⟩
        (multiReduction .maximumf [1] ⟨1, ![m]⟩ v 0xFF800000#32 hr (.inl rfl) rfl) hc) hb))
      (broadcastTo ⟨2, ![m, n]⟩ (log (shapeCast ⟨2, ![m, 1]⟩
        (multiReduction .add [1] ⟨1, ![m]⟩
          (exp (subf v (broadcastTo ⟨2, ![m, n]⟩ (shapeCast ⟨2, ![m, 1]⟩
            (multiReduction .maximumf [1] ⟨1, ![m]⟩ v 0xFF800000#32 hr (.inl rfl) rfl) hc) hb)))
          0x00000000#32 hr (.inl rfl) rfl) hc)) hb) (ix2 a b)
    = rowLse (fun k => v (ix2 a k)) b := by
  -- the shifted block, entry by entry: the entry minus its row's maximum
  have shifted : ∀ (p : Fin m) (c : Fin n),
      subf v (broadcastTo ⟨2, ![m, n]⟩ (shapeCast ⟨2, ![m, 1]⟩
        (multiReduction .maximumf [1] ⟨1, ![m]⟩ v 0xFF800000#32 hr (.inl rfl) rfl) hc) hb) (ix2 p c)
      = v (ix2 p c) - (Finset.univ : Finset (Fin n)).fold max (Ideal.ofBits .f32 0xFF800000#32) (fun k => v (ix2 p k)) := by
    intro p c
    show v (ix2 p c) - broadcastTo ⟨2, ![m, n]⟩ (shapeCast ⟨2, ![m, 1]⟩
        (multiReduction .maximumf [1] ⟨1, ![m]⟩ v 0xFF800000#32 hr (.inl rfl) rfl) hc) hb (ix2 p c) = _
    rw [Cert.LibCol.broadcastTo_a1_ab_apply, Cert.LibCol.shapeCast_a_a1_apply, rowMax_apply]
  generalize hs : subf v (broadcastTo ⟨2, ![m, n]⟩ (shapeCast ⟨2, ![m, 1]⟩
        (multiReduction .maximumf [1] ⟨1, ![m]⟩ v 0xFF800000#32 hr (.inl rfl) rfl) hc) hb) = s at shifted ⊢
  show s (ix2 a b) - broadcastTo ⟨2, ![m, n]⟩ (log (shapeCast ⟨2, ![m, 1]⟩
        (multiReduction .add [1] ⟨1, ![m]⟩ (exp s) 0x00000000#32 hr (.inl rfl) rfl) hc)) hb (ix2 a b) = _
  rw [Cert.LibCol.broadcastTo_a1_ab_apply]
  show s (ix2 a b) - Ideal.log (shapeCast ⟨2, ![m, 1]⟩
        (multiReduction .add [1] ⟨1, ![m]⟩ (exp s) 0x00000000#32 hr (.inl rfl) rfl) hc (ix2 a (0 : Fin 1))) = _
  rw [Cert.LibCol.shapeCast_a_a1_apply, rowSum_apply, shifted a b]
  unfold rowLse
  refine congrArg (fun z => _ - Ideal.log z) (Finset.sum_congr rfl fun k _ => ?_)
  show Ideal.exp (s (ix2 a k)) = _
  rw [shifted a k]

end Cert.LibLogSoftmax

end
-- ==== Proof.Reg3.lean ====
/-
  The second layer's epilogue, region by region: each of the 25 grid points takes a block of 4000 rows of the aggregated
  class scores (all 40 columns), adds the bias (one row, broadcast down the block) and takes each row's log-softmax:
  the row minus its maximum, minus the logarithm of the sum of the exponentials of the shifted row. Everything a row's
  result depends on lies in that row, so entry (4000 t + a, b) of the output is the log-softmax of row 4000 t + a of
  (scores + bias) at b. The reference does the same to the whole array; its row maximum carries one more maximum with
  negative infinity, which changes nothing, and its row sum starts from zero. The 25 row blocks tile the rows, so when the
  aggregated scores are the reference's, the output array after the region is the reference's result.
-/
import proofs.«156435_j30116310680051_1_alg».proof.Proof.Gen.KernelIdeal.Frame
import proofs.«156435_j30116310680051_1_alg».proof.Proof.RefRead
import proofs.«156435_j30116310680051_1_alg».proof.Proof.LibCol
import proofs.«156435_j30116310680051_1_alg».proof.Proof.LibLogSoftmax
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open scoped BigOperators

namespace Cert.KernelIdeal.Reg3

open Idealize.ShloMosaic Idealize.ShloMosaic.TcCoe Idealize.ShloMosaic.ValueIdx Idealize.SL.Sem
open Cert.KernelIdeal Cert.KernelIdeal.Gen Cert.LibLogSoftmax
open Idealize.ShloMosaic.Pipeline (Dat Cfg Window)

-- the buffer contents the region is entered from
variable (V : (c : Dev nD) → (b : Ref sig .tc) → Buf (Elt Ideal) ((c : Thread nD τ).loc b))

theorem off_zero : (![0, 0] : Fin 2 → Nat) = fun _ => 0 := funext fun a => by fin_cases a <;> rfl

/-- Folding the float maximum is folding `max`, from any starting value. -/
theorem fold_maximumf_eq {ι : Type} (s : Finset ι) (b : Ideal .f32) (g : ι → Ideal .f32) :
    s.fold (FloatOps.maximumf (F := Ideal) (φ := .f32)) b g = s.fold max b g := rfl

/-- The host's subtraction of a host logarithm, in the reals' spelling, with the logarithm's argument replaced by an equal. -/
theorem sub_log_congr (a s s' : Ideal .f32) (h : s = s') :
    FloatOps.subf (F := Ideal) (φ := .f32) a (FloatOps.hostUnary (F := Ideal) (φ := .f32) .log s) = a - Ideal.log s' := by
  subst h; rfl

/-- The reference's result at entry `(p, q)` is the log-softmax of row `p` of its biased scores at `q`. -/
theorem ref_entry (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal)) (a5 : (⟨Cert.ReferenceIdeal.S40, .f32⟩ : BufTy).Contents (Elt Ideal)) (p : Fin 100000) (q : Fin 40) :
    Cert.ReferenceIdeal.ReadP.val_main_v95 (F := Ideal) a0 a1 a2 a3 a4 a5 (ix2 p q)
      = rowLse (fun k : Fin 40 => Cert.ReferenceIdeal.ReadP.val_main_v94 (F := Ideal) a0 a1 a2 a3 a4 a5 (ix2 p k)) q := by
  -- a row index of row `p` with the lane coordinate put back is `(p, k)`
  have e7 : ∀ (r : Cert.ReferenceIdeal.S100000.Idx) (k : Fin 40), (r 0).val = p.val →
      Cert.ReferenceIdeal.ReadP.idx_main_call3_v7 r k = ix2 p k := fun r k h =>
    funext fun ax => Fin.ext (by match ax with | ⟨0, _⟩ => exact h | ⟨1, _⟩ => rfl)
  -- the reference's row maximum at row `p`: the fold of `max` from negative infinity over the row
  have hfold : ∀ r : Cert.ReferenceIdeal.S100000.Idx, (r 0).val = p.val →
      Cert.ReferenceIdeal.ReadP.val_main_call3_v2 (F := Ideal) a0 a1 a2 a3 a4 a5 r
        = (Finset.univ : Finset (Fin 40)).fold max (Ideal.ofBits .f32 0xFF800000#32)
            (fun k : Fin 40 => Cert.ReferenceIdeal.ReadP.val_main_v94 (F := Ideal) a0 a1 a2 a3 a4 a5 (ix2 p k)) := by
    intro r hr
    have h0 : Cert.ReferenceIdeal.ReadP.val_main_call3_v0 (F := Ideal) a0 a1 a2 a3 a4 a5 r
        = (Finset.univ : Finset (Fin 40)).fold max (Ideal.ofBits .f32 0xFF800000#32)
            (fun k : Fin 40 => Cert.ReferenceIdeal.ReadP.val_main_v94 (F := Ideal) a0 a1 a2 a3 a4 a5 (ix2 p k)) := by
      unfold Cert.ReferenceIdeal.ReadP.val_main_call3_v0
      -- the biased scores as an opaque array: nothing below looks inside them
      generalize Cert.ReferenceIdeal.ReadP.val_main_v94 (F := Ideal) a0 a1 a2 a3 a4 a5 = y
      refine (Host.reduce_eq_fold_single (FloatOps.maximumf (F := Ideal) (φ := .f32)) y (Cert.ReferenceIdeal.ReadP.val_main_call3_cst (F := Ideal))
        Cert.ReferenceIdeal.Gen.reducesTo_S100000x40_S100000_d1 (by decide) Cert.ReferenceIdeal.Gen.h_S_ r).trans ?_
      rw [Cert.ReferenceIdeal.ReadP.val_main_call3_cst_apply, Ideal.ofBits_def, fold_maximumf_eq]
      refine Finset.fold_congr fun k _ => ?_
      rw [Function.comp_apply]
      exact congrArg y (funext fun ax => Fin.ext (by match ax with | ⟨0, _⟩ => exact hr | ⟨1, _⟩ => rfl))
    rw [Cert.ReferenceIdeal.ReadP.val_main_call3_v2_apply, Cert.ReferenceIdeal.ReadP.val_main_call3_v1_apply, Cert.ReferenceIdeal.ReadP.val_main_call3_cst_0_apply, h0]
    generalize (Finset.univ : Finset (Fin 40)).fold max (Ideal.ofBits .f32 0xFF800000#32)
      (fun k : Fin 40 => Cert.ReferenceIdeal.ReadP.val_main_v94 (F := Ideal) a0 a1 a2 a3 a4 a5 (ix2 p k)) = z
    show max (Ideal.ofBits .f32 0xFF800000#32) z = z
    rw [Cert.LibCol.ofBits_neg_inf_f32]; exact max_bot_left z
  -- the shifted scores along row `p`
  have hshift : ∀ i' : Cert.ReferenceIdeal.S100000x40.Idx, (i' 0).val = p.val →
      Cert.ReferenceIdeal.ReadP.val_main_call3_v5 (F := Ideal) a0 a1 a2 a3 a4 a5 i'
        = Cert.ReferenceIdeal.ReadP.val_main_v94 (F := Ideal) a0 a1 a2 a3 a4 a5 i'
          - (Finset.univ : Finset (Fin 40)).fold max (Ideal.ofBits .f32 0xFF800000#32)
              (fun k : Fin 40 => Cert.ReferenceIdeal.ReadP.val_main_v94 (F := Ideal) a0 a1 a2 a3 a4 a5 (ix2 p k)) := by
    intro i' h
    rw [Cert.ReferenceIdeal.ReadP.val_main_call3_v5_apply, Cert.ReferenceIdeal.ReadP.val_main_call3_v4_apply, Cert.ReferenceIdeal.ReadP.val_main_call3_v3_apply, hfold _ h]; rfl
  rw [Cert.ReferenceIdeal.ReadP.val_main_v95_apply, hshift (ix2 p q) rfl, Cert.ReferenceIdeal.ReadP.val_main_call3_v10_apply, Cert.ReferenceIdeal.ReadP.val_main_call3_v9_apply,
    Cert.ReferenceIdeal.ReadP.val_main_call3_v8_apply, Cert.ReferenceIdeal.ReadP.val_main_call3_v7_apply, Cert.ReferenceIdeal.ReadP.val_main_call3_cst_1_apply]
  unfold rowLse
  refine sub_log_congr _ _ _ ?_
  show Ideal.ofBits .f32 0x00000000#32 + _ = _
  rw [Ideal.ofBits_zero_f32, zero_add]
  refine Finset.sum_congr rfl fun k _ => ?_
  rw [e7 _ k rfl, Cert.ReferenceIdeal.ReadP.val_main_call3_v6_apply, hshift (ix2 p k) rfl, Ideal.hostUnary_exp_def]

/-- One entry of one point's block: if the score block is rows `4000 r …` of the reference's aggregated scores and the
    row block is the bias, entry `j` of what the body stores is the reference's result at row `4000 r + j₀`, column `j₁`. -/
theorem entry_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal)) (a5 : (⟨Cert.ReferenceIdeal.S40, .f32⟩ : BufTy).Contents (Elt Ideal))
    (y0 : FVec Ideal S4000x40 .f32) (y1 : FVec Ideal S1x40 .f32) (r : Nat)
    (h0 : ∀ (j : S4000x40.Idx) (i : Cert.ReferenceIdeal.S100000x40.Idx),
      (i 0).val = r * 4000 + (j 0).val → (i 1).val = (j 1).val → y0 j = Cert.ReferenceIdeal.ReadP.val_main_v91 (F := Ideal) a0 a1 a2 a3 a4 i)
    (h1 : ∀ (b : Fin 40) (i : Cert.ReferenceIdeal.S40.Idx), (i 0).val = b.val → y1 (ix2 (0 : Fin 1) b) = a5 i)
    (j : S4000x40.Idx) (i : Cert.ReferenceIdeal.S100000x40.Idx)
    (hi0 : (i 0).val = r * 4000 + (j 0).val) (hi1 : (i 1).val = (j 1).val) :
    k3_pay1 (F := Ideal) y0 y1 j = Cert.ReferenceIdeal.ReadP.val_main_v95 (F := Ideal) a0 a1 a2 a3 a4 a5 i := by
  obtain ⟨a, b, rfl⟩ : ∃ (a : Fin 4000) (b : Fin 40), j = ix2 a b := ⟨j 0, j 1, eq_ix2 j⟩
  obtain ⟨p, q, rfl⟩ : ∃ (p : Fin 100000) (q : Fin 40), i = ix2 p q := ⟨i 0, i 1, eq_ix2 i⟩
  have hp : p.val = r * 4000 + a.val := hi0
  have hq : q = b := Fin.ext hi1
  subst hq
  rw [ref_entry]
  unfold k3_pay1
  simp only [shapeCast_self]
  refine (kernel_form_apply (addf y0 (broadcastTo S4000x40 y1 broadcasts_S1x40_S4000x40)) reduces_S4000x40_S4000
    shapeCasts_S4000_S4000x1 broadcasts_S4000x1_S4000x40 a q).trans ?_
  refine congrArg (fun w => rowLse w q) (funext fun k => ?_)
  show FloatOps.addf (F := Ideal) (y0 (ix2 a k)) (broadcastTo S4000x40 y1 broadcasts_S1x40_S4000x40 (ix2 a k)) = _
  rw [broadcastTo_1b_ab_apply, Cert.ReferenceIdeal.ReadP.val_main_v94_apply, Cert.ReferenceIdeal.ReadP.val_main_v93_apply, Cert.ReferenceIdeal.ReadP.val_main_v92_apply,
    h0 (ix2 a k) (ix2 p k) hp rfl, h1 k (Cert.ReferenceIdeal.ReadP.idx_main_v92 (Cert.ReferenceIdeal.ReadP.idx_main_v93 (ix2 p k))) rfl]

/-- The printed index maps over the grid: the row block of the scores and of the output is the point's number, every
    other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the reference's result. -/
theorem flushed_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal)) (a5 : (⟨Cert.ReferenceIdeal.S40, .f32⟩ : BufTy).Contents (Elt Ideal)) (c : Dev nD)
    (hA : V c main_v58 = Cert.ReferenceIdeal.ReadP.val_main_v91 (F := Ideal) a0 a1 a2 a3 a4)
    (hB : V c main_v59 = shapeCast S1x40 a5 shapeCasts_S40_S1x40) (t : Fin cfg3.N) :
    (dat3 V c).flushed 2 t = ((cfg3.win 2).blk t).view.read (Elt Ideal)
      (Cert.ReferenceIdeal.ReadP.val_main_v95 (F := Ideal) a0 a1 a2 a3 a4 a5) := by
  show (cfg3.win 2).cut (grid3.coords t) ((dat3 V c).after 2 t) = _
  rw [after3_2]
  unfold out3_2
  rw [View.canon_unit_zero off_zero]
  simp only [View.ld_unit_zero (S := S4000x40) off_zero, View.ld_unit_zero (S := S1x40) off_zero]
  obtain ⟨e0, e1, e2, e3, e4, e5⟩ := idx_facts t
  funext j
  rw [View.read_apply, cast_eq]
  refine entry_eq a0 a1 a2 a3 a4 a5 (iblk3 V c 0 t) (iblk3 V c 1 t) t.val ?_ ?_
    ((cfg3.win 2).xinj (grid3.coords t) j) (((cfg3.win 2).blk t).view.emb j) ?_ ?_
  · intro j' i hi0 hi1
    show V c main_v58 (((cfg3.win 0).blk t).view.emb j') = _
    rw [hA]
    refine congrArg (Cert.ReferenceIdeal.ReadP.val_main_v91 (F := Ideal) a0 a1 a2 a3 a4) (funext fun ax => Fin.ext ?_)
    match ax with
    | ⟨0, _⟩ => show win3_0.index t (0 : Fin 2) * 4000 + 1 * (j' 0).val = (i 0).val; omega
    | ⟨1, _⟩ => show win3_0.index t (1 : Fin 2) * 40 + 1 * (j' 1).val = (i 1).val; omega
  · intro b i hi
    show V c main_v59 (((cfg3.win 1).blk t).view.emb (ix2 (0 : Fin 1) b)) = _
    rw [hB]
    refine shapeCast_apply a5 shapeCasts_S40_S1x40 _ i ?_
    rw [Shape.rowMajor_val_two, Shape.rowMajor_val_one]
    show (i 0).val = (win3_1.index t (0 : Fin 2) * 1 + 1 * 0) * 40 + (win3_1.index t (1 : Fin 2) * 40 + 1 * b.val)
    omega
  · show win3_2.index t (0 : Fin 2) * 4000 + 1 * (j 0).val = t.val * 4000 + (j 0).val; omega
  · show win3_2.index t (1 : Fin 2) * 40 + 1 * (j 1).val = (j 1).val; omega

/-- An index of the output array is in point `t`'s block iff each coordinate is in the block's range on its axis. -/
theorem mem_blk (t : Fin cfg3.N) (i : S100000x40.Idx) :
    i ∈ ((cfg3.win 2).blk t).view.set ↔ ∀ a : Fin 2, win3_2.index t a * S4000x40.size a ≤ (i a).val ∧ (i a).val < win3_2.index t a * S4000x40.size a + S4000x40.size a := by
  show i ∈ ((View.whole main_v60).slice (win3_2.rect t)).set ↔ _
  rw [View.set_slice_whole, Rect.mem_set_unit]
  exact Iff.rfl

/-- Every row of the output lies in the block of the point numbered by the row's quotient by 4000. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  refine ⟨⟨(i 0).val / 4000, by show (i 0).val / 4000 < 25; omega⟩, flush3_2 _, ?_⟩
  rw [mem_blk]
  obtain ⟨e0, e1, e2, e3, e4, e5⟩ := idx_facts ⟨(i 0).val / 4000, by show (i 0).val / 4000 < 25; omega⟩
  intro a
  match a with
  | ⟨0, _⟩ => show win3_2.index _ (0 : Fin 2) * 4000 ≤ (i 0).val ∧ (i 0).val < win3_2.index _ (0 : Fin 2) * 4000 + 4000; rw [e4]; show (i 0).val / 4000 * 4000 ≤ _ ∧ _ < (i 0).val / 4000 * 4000 + 4000; omega
  | ⟨1, _⟩ => show win3_2.index _ (1 : Fin 2) * 40 ≤ (i 1).val ∧ (i 1).val < win3_2.index _ (1 : Fin 2) * 40 + 40; rw [e5]; omega

/-- The output array after the region: the reference's result, when the region found the reference's aggregated scores
    and the bias as one row. -/
theorem array_eq (a0 : (⟨Cert.ReferenceIdeal.S100000x500, .f32⟩ : BufTy).Contents (Elt Ideal)) (a1 : (⟨Cert.ReferenceIdeal.S2x3200000, .i32⟩ : BufTy).Contents (Elt Ideal))
    (a2 : (⟨Cert.ReferenceIdeal.S500x16, .f32⟩ : BufTy).Contents (Elt Ideal)) (a3 : (⟨Cert.ReferenceIdeal.S16, .f32⟩ : BufTy).Contents (Elt Ideal)) (a4 : (⟨Cert.ReferenceIdeal.S16x40, .f32⟩ : BufTy).Contents (Elt Ideal)) (a5 : (⟨Cert.ReferenceIdeal.S40, .f32⟩ : BufTy).Contents (Elt Ideal)) (c : Dev nD)
    (hA : V c main_v58 = Cert.ReferenceIdeal.ReadP.val_main_v91 (F := Ideal) a0 a1 a2 a3 a4)
    (hB : V c main_v59 = shapeCast S1x40 a5 shapeCasts_S40_S1x40) :
    (dat3 V c).arrAt 2 cfg3.N = Cert.ReferenceIdeal.ReadP.val_main_v95 (F := Ideal) a0 a1 a2 a3 a4 a5 :=
  (dat3 V c).arrAt_eq_of_cover 2 _ (fun t _ => flushed_eq V a0 a1 a2 a3 a4 a5 c hA hB t) cover

end Cert.KernelIdeal.Reg3

end
-- ==== Proof.Bridge.lean ====
/-
  The kernel program's result, followed through its run on one core.

  Between launch and return the program's buffer contents pass through nine boundaries: three stretches of host
  operations (the edge list with self loops, the degrees, the normalisation), the first linear region, a stretch (layer
  1's gather, scale and scatter-add; the bias as a row), the bias-and-rectifier region, the second linear region, a
  stretch (layer 2's gather, scale and scatter-add; the bias as a row) and the log-softmax region. At each boundary
  the buffers that later steps read hold the reference's stages of the same six launch arrays: the edge sources and
  targets and the normalisation from the first boundary on, then in turn the projected features, their aggregate, the
  hidden activations, their projection, its aggregate, and at the end the result. A region leaves every buffer but
  its own output as it found it, and a stretch leaves every buffer it does not write.
-/
import proofs.«156435_j30116310680051_1_alg».proof.Proof.KRun
import proofs.«156435_j30116310680051_1_alg».proof.Proof.Stretch
import proofs.«156435_j30116310680051_1_alg».proof.Proof.Reg0
import proofs.«156435_j30116310680051_1_alg».proof.Proof.Reg1
import proofs.«156435_j30116310680051_1_alg».proof.Proof.Reg2
import proofs.«156435_j30116310680051_1_alg».proof.Proof.Reg3

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The six launch arrays on core `c`, at the reference's types -/

abbrev x0 : (⟨Cert.ReferenceIdeal.S100000x500, .f32⟩ : BufTy).Contents (Elt Ideal) := m ((c : Thread nD τ).loc main_arg0)
abbrev x1 : (⟨Cert.ReferenceIdeal.S2x3200000, .i32⟩ : BufTy).Contents (Elt Ideal) := m ((c : Thread nD τ).loc main_arg1)
abbrev x2 : (⟨Cert.ReferenceIdeal.S500x16, .f32⟩ : BufTy).Contents (Elt Ideal) := m ((c : Thread nD τ).loc main_arg2)
abbrev x3 : (⟨Cert.ReferenceIdeal.S16, .f32⟩ : BufTy).Contents (Elt Ideal) := m ((c : Thread nD τ).loc main_arg3)
abbrev x4 : (⟨Cert.ReferenceIdeal.S16x40, .f32⟩ : BufTy).Contents (Elt Ideal) := m ((c : Thread nD τ).loc main_arg4)
abbrev x5 : (⟨Cert.ReferenceIdeal.S40, .f32⟩ : BufTy).Contents (Elt Ideal) := m ((c : Thread nD τ).loc main_arg5)

/-! ## Entering the first region -/

theorem in0_src : W3 m ρ c (Proc.devRef .tc main_v3) = Cert.ReferenceIdeal.ReadP.val_main_v4 (F := Ideal) (x1 m c) := Stretch.pre_src (W0 m ρ c)
theorem in0_dst : W3 m ρ c (Proc.devRef .tc main_v6) = Cert.ReferenceIdeal.ReadP.val_main_v7 (F := Ideal) (x1 m c) := Stretch.pre_dst (W0 m ρ c)
theorem in0_norm : W3 m ρ c (Proc.devRef .tc main_v30) = Cert.ReferenceIdeal.ReadP.val_main_v38 (F := Ideal) (x1 m c) := Stretch.pre_norm (W0 m ρ c)
theorem in0_arg0 : W3 m ρ c (Proc.devRef .tc main_arg0) = x0 m c := Stretch.pre_keep_arg0 (W0 m ρ c)
theorem in0_arg2 : W3 m ρ c (Proc.devRef .tc main_arg2) = x2 m c := Stretch.pre_keep_arg2 (W0 m ρ c)
theorem in0_arg3 : W3 m ρ c (Proc.devRef .tc main_arg3) = x3 m c := Stretch.pre_keep_arg3 (W0 m ρ c)
theorem in0_arg4 : W3 m ρ c (Proc.devRef .tc main_arg4) = x4 m c := Stretch.pre_keep_arg4 (W0 m ρ c)
theorem in0_arg5 : W3 m ρ c (Proc.devRef .tc main_arg5) = x5 m c := Stretch.pre_keep_arg5 (W0 m ρ c)

/-! ## Leaving the first region: the projected features -/

theorem out0_feat : W4 m ρ c (Proc.devRef .tc main_v31) = Cert.ReferenceIdeal.ReadP.val_main_v0 (F := Ideal) (x0 m c) (x2 m c) := by
  refine (W4_arr m ρ c 2).trans ((Reg0.array_eq (V3 m ρ) c).trans ?_)
  show Cert.ReferenceIdeal.ReadP.val_main_v0 (F := Ideal) (W3 m ρ c (Proc.devRef .tc main_arg0)) (W3 m ρ c (Proc.devRef .tc main_arg2)) = _
  rw [in0_arg0, in0_arg2]
theorem out0_src : W4 m ρ c (Proc.devRef .tc main_v3) = Cert.ReferenceIdeal.ReadP.val_main_v4 (F := Ideal) (x1 m c) := (W4_of_ne m ρ c main_v3 (by decide)).trans (in0_src m ρ c)
theorem out0_dst : W4 m ρ c (Proc.devRef .tc main_v6) = Cert.ReferenceIdeal.ReadP.val_main_v7 (F := Ideal) (x1 m c) := (W4_of_ne m ρ c main_v6 (by decide)).trans (in0_dst m ρ c)
theorem out0_norm : W4 m ρ c (Proc.devRef .tc main_v30) = Cert.ReferenceIdeal.ReadP.val_main_v38 (F := Ideal) (x1 m c) := (W4_of_ne m ρ c main_v30 (by decide)).trans (in0_norm m ρ c)
theorem out0_arg3 : W4 m ρ c (Proc.devRef .tc main_arg3) = x3 m c := (W4_of_ne m ρ c main_arg3 (by decide)).trans (in0_arg3 m ρ c)
theorem out0_arg4 : W4 m ρ c (Proc.devRef .tc main_arg4) = x4 m c := (W4_of_ne m ρ c main_arg4 (by decide)).trans (in0_arg4 m ρ c)
theorem out0_arg5 : W4 m ρ c (Proc.devRef .tc main_arg5) = x5 m c := (W4_of_ne m ρ c main_arg5 (by decide)).trans (in0_arg5 m ρ c)

/-! ## Entering the second region: layer 1's aggregate, the bias as a row -/

theorem in1_agg : W5 m ρ c (Proc.devRef .tc main_v43) = Cert.ReferenceIdeal.ReadP.val_main_v43 (F := Ideal) (x0 m c) (x1 m c) (x2 m c) :=
  Stretch.mid_agg (W4 m ρ c) (x0 m c) (x1 m c) (x2 m c) (out0_feat m ρ c) (out0_src m ρ c) (out0_dst m ρ c) (out0_norm m ρ c)
theorem in1_bias : W5 m ρ c (Proc.devRef .tc main_v44) = shapeCast S1x16 (x3 m c) shapeCasts_S16_S1x16 :=
  (Stretch.mid_bias (W4 m ρ c)).trans (congrArg (fun z => shapeCast S1x16 z shapeCasts_S16_S1x16) (out0_arg3 m ρ c))
theorem in1_src : W5 m ρ c (Proc.devRef .tc main_v3) = Cert.ReferenceIdeal.ReadP.val_main_v4 (F := Ideal) (x1 m c) := (Stretch.mid_keep_v3 (W4 m ρ c)).trans (out0_src m ρ c)
theorem in1_dst : W5 m ρ c (Proc.devRef .tc main_v6) = Cert.ReferenceIdeal.ReadP.val_main_v7 (F := Ideal) (x1 m c) := (Stretch.mid_keep_v6 (W4 m ρ c)).trans (out0_dst m ρ c)
theorem in1_norm : W5 m ρ c (Proc.devRef .tc main_v30) = Cert.ReferenceIdeal.ReadP.val_main_v38 (F := Ideal) (x1 m c) := (Stretch.mid_keep_v30 (W4 m ρ c)).trans (out0_norm m ρ c)
theorem in1_arg4 : W5 m ρ c (Proc.devRef .tc main_arg4) = x4 m c := (Stretch.mid_keep_arg4 (W4 m ρ c)).trans (out0_arg4 m ρ c)
theorem in1_arg5 : W5 m ρ c (Proc.devRef .tc main_arg5) = x5 m c := (Stretch.mid_keep_arg5 (W4 m ρ c)).trans (out0_arg5 m ρ c)

/-! ## Leaving the second region: the hidden activations -/

theorem out1_act : W6 m ρ c (Proc.devRef .tc main_v45) = Cert.ReferenceIdeal.ReadP.val_main_v47 (F := Ideal) (x0 m c) (x1 m c) (x2 m c) (x3 m c) :=
  (W6_arr m ρ c 2).trans (Reg1.array_eq (V5 m ρ) (x0 m c) (x1 m c) (x2 m c) (x3 m c) c (in1_agg m ρ c) (in1_bias m ρ c))
theorem out1_src : W6 m ρ c (Proc.devRef .tc main_v3) = Cert.ReferenceIdeal.ReadP.val_main_v4 (F := Ideal) (x1 m c) := (W6_of_ne m ρ c main_v3 (by decide)).trans (in1_src m ρ c)
theorem out1_dst : W6 m ρ c (Proc.devRef .tc main_v6) = Cert.ReferenceIdeal.ReadP.val_main_v7 (F := Ideal) (x1 m c) := (W6_of_ne m ρ c main_v6 (by decide)).trans (in1_dst m ρ c)
theorem out1_norm : W6 m ρ c (Proc.devRef .tc main_v30) = Cert.ReferenceIdeal.ReadP.val_main_v38 (F := Ideal) (x1 m c) := (W6_of_ne m ρ c main_v30 (by decide)).trans (in1_norm m ρ c)
theorem out1_arg4 : W6 m ρ c (Proc.devRef .tc main_arg4) = x4 m c := (W6_of_ne m ρ c main_arg4 (by decide)).trans (in1_arg4 m ρ c)
theorem out1_arg5 : W6 m ρ c (Proc.devRef .tc main_arg5) = x5 m c := (W6_of_ne m ρ c main_arg5 (by decide)).trans (in1_arg5 m ρ c)

/-! ## Leaving the third region: the projected activations -/

theorem out2_feat : W7 m ρ c (Proc.devRef .tc main_v46) = Cert.ReferenceIdeal.ReadP.val_main_v48 (F := Ideal) (x0 m c) (x1 m c) (x2 m c) (x3 m c) (x4 m c) :=
  (W7_arr m ρ c 2).trans (Reg2.array_eq (V6 m ρ) (x0 m c) (x1 m c) (x2 m c) (x3 m c) (x4 m c) c (out1_act m ρ c) (out1_arg4 m ρ c))
theorem out2_src : W7 m ρ c (Proc.devRef .tc main_v3) = Cert.ReferenceIdeal.ReadP.val_main_v4 (F := Ideal) (x1 m c) := (W7_of_ne m ρ c main_v3 (by decide)).trans (out1_src m ρ c)
theorem out2_dst : W7 m ρ c (Proc.devRef .tc main_v6) = Cert.ReferenceIdeal.ReadP.val_main_v7 (F := Ideal) (x1 m c) := (W7_of_ne m ρ c main_v6 (by decide)).trans (out1_dst m ρ c)
theorem out2_norm : W7 m ρ c (Proc.devRef .tc main_v30) = Cert.ReferenceIdeal.ReadP.val_main_v38 (F := Ideal) (x1 m c) := (W7_of_ne m ρ c main_v30 (by decide)).trans (out1_norm m ρ c)
theorem out2_arg5 : W7 m ρ c (Proc.devRef .tc main_arg5) = x5 m c := (W7_of_ne m ρ c main_arg5 (by decide)).trans (out1_arg5 m ρ c)

/-! ## Entering the last region: layer 2's aggregate, the bias as a row -/

theorem in3_agg : W8 m ρ c (Proc.devRef .tc main_v58) = Cert.ReferenceIdeal.ReadP.val_main_v91 (F := Ideal) (x0 m c) (x1 m c) (x2 m c) (x3 m c) (x4 m c) :=
  Stretch.last_agg (W7 m ρ c) (x0 m c) (x1 m c) (x2 m c) (x3 m c) (x4 m c) (out2_feat m ρ c) (out2_src m ρ c) (out2_dst m ρ c) (out2_norm m ρ c)
theorem in3_bias : W8 m ρ c (Proc.devRef .tc main_v59) = shapeCast S1x40 (x5 m c) shapeCasts_S40_S1x40 :=
  (Stretch.last_bias (W7 m ρ c)).trans (congrArg (fun z => shapeCast S1x40 z shapeCasts_S40_S1x40) (out2_arg5 m ρ c))

/-! ## The result -/

/-- The kernel program's result array on core `c` is the reference's result of the six launch arrays. -/
theorem result_eq : W9 m ρ c (Proc.devRef .tc main_v60)
    = Cert.ReferenceIdeal.ReadP.val_main_v95 (F := Ideal) (x0 m c) (x1 m c) (x2 m c) (x3 m c) (x4 m c) (x5 m c) :=
  (W9_arr m ρ c 2).trans (Reg3.array_eq (V8 m ρ) (x0 m c) (x1 m c) (x2 m c) (x3 m c) (x4 m c) (x5 m c) c (in3_agg m ρ c) (in3_bias m ρ c))

end Cert.KernelIdeal.Bridge

end
-- ==== Proof.lean ====
/-
  The certificate of a two-layer graph convolution with a log-softmax head: the kernel program against its reference.

  Both programs compute, over the extended reals, for node features x, an edge list, weights W1, W2 and biases b1, b2:
    out = log_softmax ( Â · relu ( Â · (x W1) + b1 ) W2 + b2 ),
  where Â v gathers the source rows of v along the edges (with a self loop per node appended), scales each by the
  product of the inverse square roots of its endpoints' degrees, and adds them into the target rows.
  The kernel program does the two matrix products, the bias-and-rectifier and the bias-and-log-softmax in four tiled
  kernel regions of 25 row blocks each, and the graph plumbing between them with the reference's own host operations.
  On the extended reals a block's product into a zero accumulator is the sum over the contracted axis (narrowing the
  operands changes nothing), so the 25 row blocks of each product make up the reference's one whole product; the two
  epilogues act row by row and entry by entry, so their blocks make up the reference's whole arrays too. The reference
  builds the edge list and the normalisation once per layer, from the same operations of the same input: one value.
  So the result arrays are equal, element by element; no law that needs finite inputs is used.
  The frames of the two kernel programs are the generated ones; the reference's is its run, read in stretches, with the result dropped; the
  idealisation rewrote nothing.
-/
import proofs.«156435_j30116310680051_1_alg».proof.Defs
import proofs.«156435_j30116310680051_1_alg».proof.Proof.Gen.Kernel
import proofs.«156435_j30116310680051_1_alg».proof.Proof.Gen.Kernel.Skeleton
import proofs.«156435_j30116310680051_1_alg».proof.Proof.Gen.Kernel.Launch
import proofs.«156435_j30116310680051_1_alg».proof.Proof.Gen.Kernel.Points
import proofs.«156435_j30116310680051_1_alg».proof.Proof.Gen.Kernel.Frame
import proofs.«156435_j30116310680051_1_alg».proof.Proof.Gen.KernelIdeal
import proofs.«156435_j30116310680051_1_alg».proof.Proof.Gen.KernelIdeal.Skeleton
import proofs.«156435_j30116310680051_1_alg».proof.Proof.Gen.KernelIdeal.Launch
import proofs.«156435_j30116310680051_1_alg».proof.Proof.Gen.KernelIdeal.Points
import proofs.«156435_j30116310680051_1_alg».proof.Proof.Gen.KernelIdeal.Frame
import proofs.«156435_j30116310680051_1_alg».proof.Proof.Gen.ReferenceIdeal
import proofs.«156435_j30116310680051_1_alg».proof.Proof.Gen.Pre_finite_inputs
import proofs.«156435_j30116310680051_1_alg».proof.Proof.RefRead
import proofs.«156435_j30116310680051_1_alg».proof.Proof.RefStages
import proofs.«156435_j30116310680051_1_alg».proof.Proof.KRun
import proofs.«156435_j30116310680051_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, with what it says of the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The idealisation rewrote no operation. -/
theorem preserves : Cert.preserves_Kernel_KernelIdeal := trivial

/-- From memories that agree on the six arguments both programs end with the same result array on every core: the
    reference's result stage of the arguments, which the kernel program's run reaches boundary by boundary. -/
theorem algebraic : Cert.algebraic_KernelIdeal_ReferenceIdeal := by
  intro m ρ m' ρ' _ hagree
  refine ⟨fun c => Cert.ReferenceIdeal.ReadP.val_main_v95 (F := Ideal) (Cert.KernelIdeal.Bridge.x0 m c)
    (Cert.KernelIdeal.Bridge.x1 m c) (Cert.KernelIdeal.Bridge.x2 m c) (Cert.KernelIdeal.Bridge.x3 m c)
    (Cert.KernelIdeal.Bridge.x4 m c) (Cert.KernelIdeal.Bridge.x5 m c), ?_, ?_⟩
  · exact (θ_run Cert.KernelIdeal.defs _ _).mono
      (fun r h c => ⟨(h c).1.trans (Cert.KernelIdeal.Bridge.result_eq m ρ c), (h c).2⟩)
      (Cert.KernelIdeal.Gen.run_named m ρ)
  · refine (θ_run Cert.ReferenceIdeal.defs _ _).mono (fun r h c => ⟨(h c).1.trans ?_, (h c).2⟩)
      (Cert.ReferenceIdeal.Stages.run (F := Ideal) m' ρ')
    rw [(hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
